-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S1000x512 : Shape := ⟨2, ![1000, 512]⟩
abbrev S65536 : Shape := ⟨1, ![65536]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S65536x512 .f32) (main_arg1 : FVec F S1000x512 .f32) (main_arg2 : IVec S65536 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg2 main_v9
  let main_c_3 : IVec S_ 1 := constantI S_ 1 1#1
  let main_v11 : IVec S_ 1 := (fun x v => Host.reduce IntOp.andi x v reducesTo_S65536_S_d0 h_S_) main_v10 main_c_3
  let main_v12 : IVec S_ 1 := andi main_v8 main_v11
  let main_c_4 : IVec S_ 32 := constantI S_ 32 1000#32
  let main_v13 : IVec S65536 32 := broadcastInDim S65536 ![] bcast_S_S65536 main_c_4
  let main_v14 : IVec S65536 1 := cmpi .slt main_arg2 main_v13
  let main_c_5 : IVec S_ 1 := constantI S_ 1 1#1
  let main_v15 : IVec S_ 1 := (fun x v => Host.reduce IntOp.andi x v reducesTo_S65536_S_d0 h_S_) main_v14 main_c_5
  fn_part1 (F := F) main_v12 main_v15
-- ==== Kernel.lean ====
abbrev S65536x512 : Shape := ⟨2, ![65536, 512]⟩
abbrev S1000x512 : Shape := ⟨2, ![1000, 512]⟩
abbrev S65536 : Shape := ⟨1, ![65536]⟩
abbrev S65536x1 : Shape := ⟨2, ![65536, 1]⟩
abbrev S_ : Shape := ⟨0, ![]⟩
abbrev S1024x512 : Shape := ⟨2, ![1024, 512]⟩
abbrev S256x128 : Shape := ⟨2, ![256, 128]⟩
abbrev S2048x512 : Shape := ⟨2, ![2048, 512]⟩
abbrev S2048x1 : Shape := ⟨2, ![2048, 1]⟩
abbrev S8x128 : Shape := ⟨2, ![8, 128]⟩
abbrev S2048x1024 : Shape := ⟨2, ![2048, 1024]⟩
abbrev S2048 : Shape := ⟨1, ![2048]⟩
abbrev S1 : Shape := ⟨1, ![1]⟩
abbrev S1x1 : Shape := ⟨2, ![1, 1]⟩

abbrev nBuf : Space → Nat
  | .hbm => 13
  | .vmem => 7
  | .smem => 0
  | _ => 0

abbrev bufTy : (tb : Table) → Fin (tcTables nBuf tb) → BufTy
  | .hbm, ⟨0, _⟩ => ⟨S65536x512, .f32⟩
  | .hbm, ⟨1, _⟩ => ⟨S1000x512, .f32⟩
  | .hbm, ⟨2, _⟩ => ⟨S65536, .i32⟩
  | .hbm, ⟨3, _⟩ => ⟨S65536x1, .i32⟩
  | .hbm, ⟨4, _⟩ => ⟨S_, .i32⟩
  | .hbm, ⟨5, _⟩ => ⟨S_, .f32⟩
  | .hbm, ⟨6, _⟩ => ⟨S1024x512, .f32⟩
  | .hbm, ⟨7, _⟩ => ⟨S1024x512, .bf16⟩
  | .hbm, ⟨8, _⟩ => ⟨S256x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S2048x1, .i32⟩
  | .local _ .vmem, ⟨4, _⟩ => ⟨S2048x1, .i32⟩
  | .local _ .vmem, ⟨5, _⟩ => ⟨S8x128, .f32⟩
  | .local _ .vmem, ⟨6, _⟩ => ⟨S8x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S65536_S65536x1 : S65536.ShapeCasts S65536x1
  pads_S1000x512_S1024x512_0240_000 : S1000x512.Pads (![0, 0] : Fin 2 → Nat) ![24, 0] ![0, 0] S1024x512
  h_S_ : 0 < S_.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1024_d1_w32 : S2048x1024.Iotas .tc 32 [1]
  broadcasts_S2048x1_S2048x1024 : S2048x1.Broadcasts S2048x1024
  natLt_1_32 : 1 < 32
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S256x128_S_d0_1 : S256x128.ReducesTo [0, 1] S_
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .i32 = 32 ∨ (Rect.block (s := S65536x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S256x128.size a
  hwx0_3 : ∀ i : grid0.Coords, EltTy.bits .f32 = 32 ∨ (Rect.block (s := S256x128) S8x128.size (cc0_transform_3 i) (hinb0_3 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S1000x512 : Shape := ⟨2, ![1000, 512]⟩
abbrev S65536 : Shape := ⟨1, ![65536]⟩
abbrev S_ : Shape := ⟨0, ![]⟩
abbrev S65536x1 : Shape := ⟨2, ![65536, 1]⟩

abbrev nBuf : Space → Nat
  | .hbm => 24
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S1000x512, .f32⟩
  | .hbm, ⟨2, _⟩ => ⟨S65536, .i32⟩
  | .hbm, ⟨3, _⟩ => ⟨S_, .i32⟩
  | .hbm, ⟨4, _⟩ => ⟨S65536, .i32⟩
  | .hbm, ⟨5, _⟩ => ⟨S65536, .i1⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536, .f32⟩
  | .hbm, ⟨16, _⟩ => ⟨S_, .f32⟩
  | .hbm, ⟨17, _⟩ => ⟨S65536, .f32⟩
  | .hbm, ⟨18, _⟩ => ⟨S65536, .f32⟩
  | .hbm, ⟨19, _⟩ => ⟨S65536, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  reducesTo_S65536x512_S65536_d1 : S65536x512.ReducesTo [1] S65536
  h_S_ : 0 < S_.numel
  reducesTo_S65536_S_d0 : S65536.ReducesTo [0] S_
  gather_S1000x512_S65536x1_S65536x512_1_0_n_n_0_1_1512_wf : GatherDims.WF S1000x512 S65536x1 S65536x512 [1] [0] [] [0] [] 1 ![1, 512]

variable [Facts₀]

def gather_S1000x512_S65536x1_S65536x512_1_0_n_n_0_1_1512 : GatherDims S1000x512 S65536x1 S65536x512 where
  offsetDims := [1]
  collapsedSliceDims := [0]
  operandBatchingDims := []
  startIndicesBatchingDims := []
  startIndexMap := [0]
  indexVectorDim := 1
  sliceSizes := ![1, 512]
  wf := gather_S1000x512_S65536x1_S65536x512_1_0_n_n_0_1_1512_wf

class Facts : Prop extends Facts₀ where

variable [Facts]
-- ==== Proof.LibBlockSum.lean ====
/-
  A sum over n·b terms taken block by block, and an accumulator that adds one block's sum per step.

  Position t·b + r is the r-th term of block t. Over a commutative monoid the sum of all n·b terms is the sum over the
  blocks of each block's sum: this is only a re-indexing of the positions by (block, place in block). An accumulator
  that holds 0 + g 0 after step 0 and adds g (k+1) at step k+1 holds g 0 + … + g k after step k; with g t the sum of
  block t, after the last step it holds the sum of all terms.
-/
import Mathlib.Algebra.BigOperators.Fin
import Mathlib.Logic.Equiv.Fin.Basic

namespace Cert.BlockSum

open scoped BigOperators

variable {M : Type*} [AddCommMonoid M]

/-- Among `N = n * b` positions, the one of block `t` at place `r`: `t * b + r`. -/
def pos {N : ℕ} (n b : ℕ) (h : N = n * b) (t : Fin n) (r : Fin b) : Fin N :=
  ⟨t.val * b + r.val, by
    subst h
    calc t.val * b + r.val < t.val * b + b := Nat.add_lt_add_left r.isLt _
      _ = (t.val + 1) * b := (Nat.succ_mul _ _).symm
      _ ≤ n * b := Nat.mul_le_mul_right _ t.isLt⟩

@[simp] theorem pos_val {N : ℕ} (n b : ℕ) (h : N = n * b) (t : Fin n) (r : Fin b) :
    (pos n b h t r).val = t.val * b + r.val := rfl

/-- The sum of all terms is the sum over the blocks of each block's sum. -/
theorem sum_blocks {N : ℕ} (n b : ℕ) (h : N = n * b) (f : Fin N → M) :
    ∑ i : Fin N, f i = ∑ t : Fin n, ∑ r : Fin b, f (pos n b h t r) := by
  subst h
  rw [← Fintype.sum_prod_type']
  refine (Fintype.sum_equiv finProdFinEquiv _ _ fun x => ?_).symm
  congr 1
  apply Fin.ext
  show x.1.val * b + x.2.val = x.2.val + b * x.1.val
  rw [Nat.mul_comm, Nat.add_comm]

/-- An accumulator that holds `0 + g 0` after step 0 and adds `g (k + 1)` at step `k + 1` holds, after step `k`,
    the sum of `g 0, …, g k`. -/
theorem chain_eq_sum (N : ℕ) (a g : (k : ℕ) → k < N → M)
    (h0 : ∀ h, a 0 h = 0 + g 0 h)
    (hs : ∀ (k : ℕ) (h : k + 1 < N), a (k + 1) h = a k (Nat.lt_of_succ_lt h) + g (k + 1) h) :
    ∀ (k : ℕ) (h : k < N), a k h = ∑ t : Fin (k + 1), g t.val (Nat.lt_of_lt_of_le t.isLt h)
  | 0, h => by
    rw [h0, zero_add, Fin.sum_univ_castSucc, Fin.sum_univ_zero, zero_add]
    rfl
  | k + 1, h => by
    rw [hs, chain_eq_sum N a g h0 hs k, Fin.sum_univ_castSucc (n := k + 1)]
    rfl

/-- After its last step the accumulator holds the sum of all the `g t`. -/
theorem chain_last (n : ℕ) (a g : (k : ℕ) → k < n + 1 → M)
    (h0 : ∀ h, a 0 h = 0 + g 0 h)
    (hs : ∀ (k : ℕ) (h : k + 1 < n + 1), a (k + 1) h = a k (Nat.lt_of_succ_lt h) + g (k + 1) h) :
    a n (Nat.lt_succ_self n) = ∑ t : Fin (n + 1), g t.val t.isLt :=
  chain_eq_sum (n + 1) a g h0 hs n (Nat.lt_succ_self n)

/-- An accumulator that adds block `t`'s sum at step `t`, starting from `0`, holds after the last of the `n + 1`
    steps the sum of all `(n + 1) * b` terms. -/
theorem chain_blocks_eq_sum {N : ℕ} (n b : ℕ) (hN : N = (n + 1) * b) (f : Fin N → M)
    (a : (k : ℕ) → k < n + 1 → M)
    (h0 : ∀ h, a 0 h = 0 + ∑ r : Fin b, f (pos (n + 1) b hN ⟨0, h⟩ r))
    (hs : ∀ (k : ℕ) (h : k + 1 < n + 1),
      a (k + 1) h = a k (Nat.lt_of_succ_lt h) + ∑ r : Fin b, f (pos (n + 1) b hN ⟨k + 1, h⟩ r)) :
    a n (Nat.lt_succ_self n) = ∑ i : Fin N, f i := by
  rw [sum_blocks (n + 1) b hN f]
  exact chain_last n a (fun k hk => ∑ r : Fin b, f (pos (n + 1) b hN ⟨k, hk⟩ r)) h0 hs

end Cert.BlockSum
-- ==== Proof.Spec.lean ====
/-
  The centre loss as ONE function of the three argument arrays, over the extended reals.

  Sample i has a feature row x[i, ·] of 512 numbers and a class label tg[i]; the table w has one centre row of 512
  numbers per class, 1000 classes. The distance of a sample to its class centre is
      dist i = √( Σ_j (x[i,j] − w[tg i, j])² + ε ),
  and the loss is the mean of the 65536 distances: (Σ_i dist i) / 65536. Here ε and 65536 are the values of the two
  float patterns both programs carry, never evaluated.

  The second half is about how the kernel delivers that sum: it cuts the samples into 32 blocks of 2048, and hands back a
  256 × 128 array made of 32 tiles of 8 × 128, tile t holding block t's sum of distances in its corner entry and zero
  elsewhere. Summing that whole array gives the sum of the block sums, which is the sum over all samples, since a sum over
  32 · 2048 positions is the sum over the blocks of each block's sum.
-/
import Idealize.ShloMosaic.PureOps.Ideal.Laws
import Idealize.ShloMosaic.Lib.ValueIdx
import proofs.«408487_j90778428768344_3_alg».proof.Proof.LibBlockSum

noncomputable section

open Idealize.ShloMosaic Idealize.ShloMosaic.ValueIdx
open scoped BigOperators

namespace Cert.CenterLoss

/-- Features, centres and labels. -/
abbrev SX : Shape := ⟨2, ![65536, 512]⟩
abbrev SW : Shape := ⟨2, ![1000, 512]⟩
abbrev ST : Shape := ⟨1, ![65536]⟩

/-- Every label is a class number: below 1000 as an unsigned word (so non-negative as a signed one). -/
def InRange (tg : ST.Idx → BitVec 32) : Prop := ∀ i : Fin 65536, (tg (ix1 i)).toNat < 1000

/-- Sample `i`'s class, as a row of the table of centres (a label outside the table is clamped to its last row; under
    `InRange` no label is). -/
def cls (tg : ST.Idx → BitVec 32) (i : Fin 65536) : Fin 1000 := ⟨min (tg (ix1 i)).toNat 999, by omega⟩

/-- The two float patterns both programs carry: ε under the root, and the number of samples. -/
def eps : EReal := Ideal.ofBits .f32 0x358637BD#32
def count : EReal := Ideal.ofBits .f32 0x47800000#32

/-- The squared distance of sample `i` to its class centre. -/
def sqDist (x : SX.Idx → EReal) (w : SW.Idx → EReal) (tg : ST.Idx → BitVec 32) (i : Fin 65536) : EReal :=
  ∑ j : Fin 512, (x (ix2 i j) - w (ix2 (cls tg i) j)) * (x (ix2 i j) - w (ix2 (cls tg i) j))

/-- The distance of sample `i` to its class centre. -/
def dist (x : SX.Idx → EReal) (w : SW.Idx → EReal) (tg : ST.Idx → BitVec 32) (i : Fin 65536) : EReal :=
  Ideal.sqrt (sqDist x w tg i + eps)

/-- The loss: the mean distance. -/
def loss (x : SX.Idx → EReal) (w : SW.Idx → EReal) (tg : ST.Idx → BitVec 32) : EReal :=
  Ideal.div (∑ i : Fin 65536, dist x w tg i) count

/-! ## Block sums in tile corners -/

section Corner
variable {M : Type*} [AddCommMonoid M]

/-- A 256 × 128 array of 32 tiles of 8 × 128, tile `t` holding `g t` in its corner `(8 t, 0)` and zero elsewhere. -/
def corner (g : Fin 32 → M) (a : Fin 256) (b : Fin 128) : M :=
  if a.val % 8 = 0 ∧ b.val = 0 then g ⟨a.val / 8, by have := a.isLt; omega⟩ else 0

/-- Along a row only column 0 can be non-zero. -/
theorem sum_corner_row (g : Fin 32 → M) (a : Fin 256) :
    ∑ b : Fin 128, corner g a b = if a.val % 8 = 0 then g ⟨a.val / 8, by have := a.isLt; omega⟩ else 0 := by
  rw [Finset.sum_eq_single (0 : Fin 128)]
  · unfold corner
    by_cases h : a.val % 8 = 0
    · rw [if_pos ⟨h, rfl⟩, if_pos h]
    · rw [if_neg (fun hh => h hh.1), if_neg h]
  · intro b _ hb
    unfold corner
    rw [if_neg]
    intro h
    exact hb (Fin.ext h.2)
  · intro h
    exact absurd (Finset.mem_univ _) h

/-- The sum of the whole array is the sum of the 32 corner values. -/
theorem sum_corner (g : Fin 32 → M) : ∑ a : Fin 256, ∑ b : Fin 128, corner g a b = ∑ t : Fin 32, g t := by
  rw [Finset.sum_congr rfl fun a _ => sum_corner_row g a, Cert.BlockSum.sum_blocks 32 8 rfl]
  refine Finset.sum_congr rfl fun t _ => ?_
  rw [Finset.sum_eq_single (0 : Fin 8)]
  · have h0 : (Cert.BlockSum.pos 32 8 rfl t (0 : Fin 8)).val % 8 = 0 := by
      rw [Cert.BlockSum.pos_val]; show (t.val * 8 + 0) % 8 = 0; omega
    rw [if_pos h0]
    congr 1
    apply Fin.ext
    show (Cert.BlockSum.pos 32 8 rfl t (0 : Fin 8)).val / 8 = t.val
    rw [Cert.BlockSum.pos_val]; show (t.val * 8 + 0) / 8 = t.val; omega
  · intro r _ hr
    rw [if_neg]
    rw [Cert.BlockSum.pos_val]
    intro h
    apply hr
    apply Fin.ext
    have := r.isLt
    show r.val = 0
    omega
  · intro h
    exact absurd (Finset.mem_univ _) h

end Corner

/-- The sum of the distances of block `t`'s 2048 samples. -/
def blockSum (x : SX.Idx → EReal) (w : SW.Idx → EReal) (tg : ST.Idx → BitVec 32) (t : Fin 32) : EReal :=
  ∑ r : Fin 2048, dist x w tg (Cert.BlockSum.pos 32 2048 rfl t r)

/-- The array the kernel hands back: block sums in tile corners. -/
def partials (x : SX.Idx → EReal) (w : SW.Idx → EReal) (tg : ST.Idx → BitVec 32) :
    (⟨2, ![256, 128]⟩ : Shape).Idx → EReal :=
  fun p => corner (blockSum x w tg) (p 0) (p 1)

/-- Summing the whole array of partial sums gives the sum of all distances. -/
theorem sum_partials (x : SX.Idx → EReal) (w : SW.Idx → EReal) (tg : ST.Idx → BitVec 32) :
    ∑ p : (⟨2, ![256, 128]⟩ : Shape).Idx, partials x w tg p = ∑ i : Fin 65536, dist x w tg i := by
  rw [sum_idx2]
  show ∑ a : Fin 256, ∑ b : Fin 128, corner (blockSum x w tg) a b = _
  rw [sum_corner, Cert.BlockSum.sum_blocks 32 2048 rfl]
  rfl

end Cert.CenterLoss

end
-- ==== Proof.Labels.lean ====
/-
  What the precondition says about the labels. Its last two conjuncts are `all (tg ≥ 0)` and `all (tg < 1000)`, signed
  comparisons of 32-bit words: a word that is non-negative as a signed integer and below 1000 is below 1000 as an unsigned
  one, so every label is a class number.
-/
import proofs.«408487_j90778428768344_3_alg».proof.Pre_finite_inputs
import proofs.«408487_j90778428768344_3_alg».proof.Proof.Spec
import Idealize.ShloMosaic.Lib.ReduceAll
import Idealize.ShloMosaic.Lib.IdealHost

noncomputable section

open Idealize.ShloMosaic Idealize.ShloMosaic.ValueIdx

namespace Cert.CenterLoss

/-- A word that is non-negative and below 1000 as a signed integer is below 1000 as an unsigned one. -/
theorem toNat_lt_of_toInt {t : BitVec 32} (h0 : 0 ≤ t.toInt) (h1 : t.toInt < 1000) : t.toNat < 1000 := by
  rw [BitVec.toInt_eq_toNat_cond] at h0 h1
  have := t.isLt
  by_cases h : 2 * t.toNat < 2 ^ 32
  · rw [if_pos h] at h1; omega
  · rw [if_neg h] at h0; omega

/-- Below 1000 as an unsigned word, a label reads the same signed, and is not negative. -/
theorem toInt_of_toNat_lt {t : BitVec 32} (h : t.toNat < 1000) : t.toInt = t.toNat := by
  rw [BitVec.toInt_eq_toNat_cond, if_pos (by omega)]

instance : Subsingleton Cert.Pre_finite_inputs.S_.Idx := ⟨fun a b => funext fun d => d.elim0⟩

/-- The printed precondition, all ones, puts every label in the class range. -/
theorem inRange_of_pre {F : FTy → Type} [FloatOps F] [Cert.Pre_finite_inputs.Facts]
    (a0 : FVec F Cert.Pre_finite_inputs.S65536x512 .f32) (a1 : FVec F Cert.Pre_finite_inputs.S1000x512 .f32)
    (a2 : IVec Cert.Pre_finite_inputs.S65536 32)
    (h : Cert.Pre_finite_inputs.fn (F := F) a0 a1 a2 = fun _ => 1#1) : InRange a2 := by
  intro i
  have h0 := congrFun h ix0
  dsimp only [Cert.Pre_finite_inputs.fn, Cert.Pre_finite_inputs.fn_part1] at h0
  obtain ⟨h12, h15⟩ := IntOp.andi_eq_one.1 h0
  obtain ⟨-, h11⟩ := IntOp.andi_eq_one.1 h12
  have hge := Host.reduce_andi_all _ _ _ _ _ h11 (ix1 i)
  have hlt := Host.reduce_andi_all _ _ _ _ _ h15 (ix1 i)
  have hge' : (0 : ℤ) ≤ (a2 (ix1 i)).toInt := by
    have := IntOp.cmpi_sge.1 hge
    rwa [broadcastInDim_scalar_apply] at this
  have hlt' : (a2 (ix1 i)).toInt < 1000 := by
    have := IntOp.cmpi_slt.1 hlt
    rwa [broadcastInDim_scalar_apply] at this
  exact toNat_lt_of_toInt hge' hlt'

end Cert.CenterLoss

end
-- ==== Proof.LibGatherRows.lean ====
/-
  General lemma: jnp's `table[idx]` for a matrix `table : [N, D]` and a vector of row numbers, as StableHLO prints it.
  The gather takes whole rows: offset_dims [1], collapsed_slice_dims [0], start_index_map [0], slice_sizes [1, D], with the
  row numbers laid out as a column [R, 1] (index_vector_dim 1). Result entry (r, c) is the table at row `idx[r, 0]`, read as
  a signed integer and clamped into [0, N − 1], and column c.
-/
import Idealize.ShloMosaic.Lib.ValueIdx

open Idealize.ShloMosaic Idealize.ShloMosaic.ValueIdx

namespace Cert.Lib.GatherRows

variable {α : Type}

/-- The dimension numbers of a whole-row gather from `[N, D]` by a column `[R, 1]` of row numbers into `[R, D]`. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section
variable {N D R w : Nat}
  (wf : GatherDims.WF ⟨2, ![N, D]⟩ ⟨2, ![R, 1]⟩ ⟨2, ![R, D]⟩ [1] [0] [] [0] [] 1 ![1, D])
  (idx : IVec ⟨2, ![R, 1]⟩ w) (r : Fin R) (c : Fin D)

/-- On the table's row axis the operand index is the clamped row number (the axis is collapsed: no offset). -/
theorem operandIdx_row :
    ((rowDims N D R wf).operandIdx (ix2 r c) idx (0 : Fin 2)).val = min (idx (ix2 r (0 : Fin 1))).toInt.toNat (N - 1) := by
  show (rowDims N D R wf).start (ix2 r c) idx 0 + (rowDims N D R wf).batchCoord (ix2 r c) 0
    + (rowDims N D R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx (ix2 r c) ⟨List.idxOf (0 : Fin 2) (rowDims N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis the operand index is the result's column (the axis is not in the start index map). -/
theorem operandIdx_col :
    ((rowDims N D R wf).operandIdx (ix2 r c) idx (1 : Fin 2)).val = c.val := by
  show (rowDims N D R wf).start (ix2 r c) idx 1 + (rowDims N D R wf).batchCoord (ix2 r c) 1
    + (rowDims N D R wf).offCoord (ix2 r c) 1 = _
  have h1 : (1 : Fin 2) ∈ (rowDims N D R wf).sKept := by
    rw [GatherDims.mem_sKept]
    exact ⟨fun h => absurd (congrArg Fin.val (List.mem_singleton.mp h)) Nat.one_ne_zero, List.not_mem_nil⟩
  rw [GatherDims.batchCoord_eq_zero _ _ _ List.not_mem_nil]
  unfold GatherDims.start
  rw [dif_neg (show (1 : Fin 2) ∉ (rowDims N D R wf).startIndexMap from
    fun h => absurd (congrArg Fin.val (List.mem_singleton.mp h)) Nat.one_ne_zero)]
  unfold GatherDims.offCoord
  rw [dif_pos h1]
  simp only [Nat.zero_add, Nat.add_zero]
  rfl

end

/-- The whole-row gather read at `(r, c)`: the table at the clamped row number `idx[r, 0]` and column `c`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (c : Fin D) :
    Host.gather (rowDims N D R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ => exact operandIdx_row wf idx r c
  | ⟨1, _⟩ => exact operandIdx_col wf idx r c

end Cert.Lib.GatherRows
-- ==== Proof.RefValue.lean ====
/-
  The reference computes the loss. Its text first turns a negative label t into t + 1000 (jnp's negative indexing), then
  gathers row `clamp t` of the table of centres for every sample, and from there follows the formula: subtract, square,
  sum each row, add ε, take the root, sum over the samples, divide by their number. For a label in the class range the
  first two steps do nothing: it is not negative, and it is inside the table. So the gathered row is the sample's class
  centre and the result is `loss`.
-/
import proofs.«408487_j90778428768344_3_alg».proof.Proof.Gen.ReferenceIdeal.Read
import proofs.«408487_j90778428768344_3_alg».proof.Proof.Spec
import proofs.«408487_j90778428768344_3_alg».proof.Proof.Labels
import proofs.«408487_j90778428768344_3_alg».proof.Proof.LibGatherRows
import Idealize.ShloMosaic.Lib.ValueIdxRank1

noncomputable section

open Idealize.ShloMosaic Idealize.ShloMosaic.ValueIdx
open scoped BigOperators

namespace Cert.CenterLoss.Ref

open Cert.ReferenceIdeal Cert.ReferenceIdeal.Read Cert.CenterLoss

variable [Cert.ReferenceIdeal.Facts]

/-- A label in the class range passes the negative-index wrap unchanged. -/
theorem label_kept (x2 : IVec S65536 32) (h : InRange x2) (i : Fin 65536) :
    val_main_v5 (F := Ideal) x2 (ix2 i (0 : Fin 1)) = x2 (ix1 i) := by
  have hi : idx_main_v5 (ix2 i (0 : Fin 1)) = ix1 i := by
    funext a; match a with | ⟨0, _⟩ => rfl
  have hn : IntOp.cmpi .slt (x2 (ix1 i)) 0#32 = 0#1 := by
    refine eq_zero_of_ne_one fun h1 => ?_
    have := IntOp.cmpi_slt.1 h1
    rw [toInt_of_toNat_lt (h i)] at this
    have h0 : (0#32 : BitVec 32).toInt = 0 := by decide
    omega
  rw [val_main_v5_apply, hi, val_main_v4_apply, val_main_v1_apply, val_main_v0_apply, val_main_c_apply, hn, select_zero]

/-- The gathered array holds, in row `i`, the centre of sample `i`'s class. -/
theorem gathered (x1 : FVec Ideal S1000x512 .f32) (x2 : IVec S65536 32) (h : InRange x2) (i : Fin 65536) (k : Fin 512) :
    val_main_v6 (F := Ideal) x1 x2 (ix2 i k) = x1 (ix2 (cls x2 i) k) := by
  unfold val_main_v6
  refine (Cert.Lib.GatherRows.gather_rows_apply (N := 1000) (D := 512) (R := 65536) (by decide)
    Facts₀.gather_S1000x512_S65536x1_S65536x512_1_0_n_n_0_1_1512_wf x1 (val_main_v5 (F := Ideal) x2) i k).trans ?_
  refine congrArg x1 (congrArg (fun r => ix2 r k) (Fin.ext ?_))
  show min (val_main_v5 (F := Ideal) x2 (ix2 i (0 : Fin 1))).toInt.toNat (1000 - 1) = min (x2 (ix1 i)).toNat 999
  rw [label_kept x2 h i, toInt_of_toNat_lt (h i)]
  rfl

/-- Entry `i` of the array of roots is sample `i`'s distance to its class centre. -/
theorem root_eq (x0 : FVec Ideal S65536x512 .f32) (x1 : FVec Ideal S1000x512 .f32) (x2 : IVec S65536 32)
    (h : InRange x2) (i : Fin 65536) :
    val_main_v12 (F := Ideal) x0 x1 x2 (ix1 i) = dist x0 x1 x2 i := by
  have hk : ∀ k : Fin 512, idx_main_v9 (ix1 i) k = ix2 i k := fun k => by
    funext a; match a with | ⟨0, _⟩ => rfl | ⟨1, _⟩ => rfl
  rw [val_main_v12_apply, val_main_v11_apply, val_main_v9_apply, val_main_v10_apply, val_main_cst_1_apply,
    val_main_cst_apply]
  unfold dist sqDist eps
  simp only [Ideal.hostUnary_sqrt_def, Ideal.addf_def, Ideal.ofBits_def, Ideal.ofBits_zero_f32, zero_add]
  refine congrArg (fun s => Ideal.sqrt (s + _)) (Finset.sum_congr rfl fun k _ => ?_)
  rw [hk k, val_main_v8_apply, val_main_v7_apply, gathered x1 x2 h]
  rfl

/-- THE REFERENCE'S RESULT is the loss. -/
theorem value (x0 : FVec Ideal S65536x512 .f32) (x1 : FVec Ideal S1000x512 .f32) (x2 : IVec S65536 32)
    (h : InRange x2) : val_main_v14 (F := Ideal) x0 x1 x2 = fun _ => loss x0 x1 x2 := by
  funext i
  have hsum : ∑ j : S65536.Idx, val_main_v12 (F := Ideal) x0 x1 x2 j = ∑ i : Fin 65536, dist x0 x1 x2 i := by
    rw [← Equiv.sum_comp (idxEquiv1 (n := 65536)).symm (val_main_v12 (F := Ideal) x0 x1 x2)]
    exact Finset.sum_congr rfl fun i _ => root_eq x0 x1 x2 h i
  rw [val_main_v14_apply, val_main_v13_apply, val_main_cst_2_apply, val_main_cst_3_apply, hsum]
  unfold loss count
  simp only [Ideal.hostDivf_def, Ideal.ofBits_def, Ideal.ofBits_zero_f32, zero_add]

end Cert.CenterLoss.Ref

end
-- ==== Proof.LibColumn.lean ====
/-
  General lemmas: a column kept beside a matrix (jnp's keepdims=True).
  A rank-1 array cast to a column reads the operand at the row; a column broadcast across a matrix's columns reads the
  column at the row. (The library has the leading-unit-axis casts and the row broadcast; these are the trailing-unit-axis
  forms every kernel with a keepdims row reduction meets.)
-/
import Idealize.ShloMosaic.Lib.ValueIdx
import Idealize.ShloMosaic.Lib.Pipeline.Value

noncomputable section

open Idealize.ShloMosaic Idealize.ShloMosaic.ValueIdx

namespace Cert.Lib.Column

/-- An `[a]` array cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A column `[a, 1]` broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.Payload.lean ====
/-
  What the kernel body stores, entry by entry, over the extended reals.

  The body works on one block: 2048 feature rows `v0`, the whole (padded) table of centres `v1` with 1024 rows, and the
  2048 labels `v3` as a column. It builds the 2048 × 1024 selector whose row r has a 1 in column `label r` and 0 elsewhere,
  and multiplies it with the table: row r of the product is Σ_c sel[r,c] · v1[c,·], in which every term but the one at
  c = label r is 0 · (something) = 0 and that one is 1 · v1[label r, ·] — the selected row, exactly (on the extended reals
  0 · y = 0 for every y, so no finiteness is needed). From there: subtract from the features, square, sum each row, add ε,
  take the root, and sum the 2048 roots. The 8 × 128 tile stored has that block sum at (0, 0) and zero everywhere else.
-/
import proofs.«408487_j90778428768344_3_alg».proof.Proof.Gen.KernelIdeal.Skeleton
import proofs.«408487_j90778428768344_3_alg».proof.Proof.Spec
import proofs.«408487_j90778428768344_3_alg».proof.Proof.LibColumn
import Idealize.ShloMosaic.Lib.Pipeline.Value
import Idealize.ShloMosaic.PureOps.Ideal.Laws
import Idealize.ShloMosaic.Lib.StableHlo.Predicate

noncomputable section

open Idealize.ShloMosaic Idealize.ShloMosaic.ValueIdx
open scoped BigOperators

namespace Cert.CenterLoss.Body

open Cert.KernelIdeal Cert.KernelIdeal.Gen Cert.CenterLoss

/-! ## The stages of the body -/

/-- The selector: 1 where the column number equals the row's label, 0 elsewhere. -/
def selector (v3 : Vec Ideal S2048x1 .i32) : FVec Ideal S2048x1024 .bf16 :=
  truncf .bf16 (sitofp .f32 (extui 32 (cmpi .eq (iota .tc S2048x1024 32 [1] iota_S2048x1024_d1_w32)
    (broadcastTo S2048x1024 (shapeCast S2048x1 v3 shapeCasts_S2048x1_S2048x1) broadcasts_S2048x1_S2048x1024)) natLt_1_32))
    bitsLt_bf16_f32

/-- The selector times the table: the selected centre rows. -/
def picked (v1 : Vec Ideal S1024x512 .bf16) (v3 : Vec Ideal S2048x1 .i32) : FVec Ideal S2048x512 .f32 :=
  matmul dot_S2048x1024_S1024x512_S2048x512_1_0_0_1_n_n none (selector v3)
    (shapeCast S1024x512 v1 shapeCasts_S1024x512_S1024x512 : FVec Ideal S1024x512 .bf16) (constant S2048x512 .f32 0x00000000#32)

/-- The column of row distances to the rows `c`. -/
def roots (v0 : Vec Ideal S2048x512 .f32) (c : FVec Ideal S2048x512 .f32) : FVec Ideal S2048x1 .f32 :=
  sqrt (addf (shapeCast S2048x1 (multiReduction .add [1] S2048 (mulf (subf v0 c) (subf v0 c)) 0x00000000#32
    reduces_S2048x512_S2048 (.inl rfl) rfl) shapeCasts_S2048_S2048x1) (broadcast S2048x1 (Scalar.ofBits .f32 0x358637BD#32)))

/-- The stored tile: the column's sum at (0, 0), zero elsewhere. -/
def tile (s : FVec Ideal S2048x1 .f32) : FVec Ideal S8x128 .f32 :=
  select (andi (cmpi .eq (iota .tc S8x128 32 [0] iota_S8x128_d0_w32) (broadcast S8x128 0#32))
      (cmpi .eq (iota .tc S8x128 32 [1] iota_S8x128_d1_w32) (broadcast S8x128 0#32)))
    (broadcastTo S8x128 (shapeCast S1x1 (shapeCast S1x1 (multiReduction .add [0] S1 s 0x00000000#32 reduces_S2048x1_S1 (.inl rfl) rfl)
      shapeCasts_S1_S1x1) shapeCasts_S1x1_S1x1) broadcasts_S1x1_S8x128)
    (broadcast S8x128 (Scalar.ofBits .f32 0x00000000#32))

/-- The body's one stored value is these stages composed. -/
theorem pay_eq (v0 : Vec Ideal S2048x512 .f32) (v1 : Vec Ideal S1024x512 .bf16) (v3 : Vec Ideal S2048x1 .i32) :
    k0_pay1 (F := Ideal) v0 v1 v3 = tile (roots v0 (picked v1 v3)) := by
  unfold k0_pay1 tile roots picked selector
  rfl

/-! ## The selector -/

/-- A column number below 2³² is a label word exactly when it is the word's value. -/
theorem ofNat_eq_iff (c : ℕ) (hc : c < 2 ^ 32) (t : BitVec 32) : BitVec.ofNat 32 c = t ↔ c = t.toNat := by
  constructor
  · rintro rfl; rw [BitVec.toNat_ofNat, Nat.mod_eq_of_lt hc]
  · rintro rfl; rw [BitVec.ofNat_toNat, BitVec.setWidth_eq]

/-- A one-bit word widened and read as a number: 1 for the bit 1, 0 for the bit 0. -/
theorem sitofp_bit (b : BitVec 1) :
    FloatOps.sitofp (F := Ideal) .f32 (b.setWidth 32) = if b = 1#1 then (1 : EReal) else 0 := by
  rcases BitVec.eq_zero_or_eq_one b with rfl | rfl
  · rw [if_neg (by decide)]
    show (((((0#1 : BitVec 1).setWidth 32).toInt : ℤ) : ℝ) : EReal) = 0
    have : ((0#1 : BitVec 1).setWidth 32).toInt = 0 := by decide
    rw [this]; norm_num
  · rw [if_pos rfl]
    show (((((1#1 : BitVec 1).setWidth 32).toInt : ℤ) : ℝ) : EReal) = 1
    have : ((1#1 : BitVec 1).setWidth 32).toInt = 1 := by decide
    rw [this]; norm_num

theorem selector_apply (v3 : Vec Ideal S2048x1 .i32) (r : Fin 2048) (c : Fin 1024) :
    selector v3 (ix2 r c) = if c.val = (v3 (ix2 r (0 : Fin 1))).toNat then (1 : EReal) else 0 := by
  unfold selector
  rw [truncf_apply, sitofp_apply, extui_apply]
  show FloatOps.sitofp .f32 ((IntOp.cmpi .eq (iota .tc S2048x1024 32 [1] iota_S2048x1024_d1_w32 (ix2 r c))
    (broadcastTo S2048x1024 (shapeCast S2048x1 v3 shapeCasts_S2048x1_S2048x1) broadcasts_S2048x1_S2048x1024 (ix2 r c))).setWidth 32) = _
  rw [iota_single_apply, Cert.Lib.Column.broadcastTo_a1_ab_apply, shapeCast_self, sitofp_bit]
  refine if_congr ?_ rfl rfl
  show IntOp.cmpi .eq (BitVec.ofNat 32 c.val) (v3 (ix2 r (0 : Fin 1))) = 1#1 ↔ _
  rw [StableHlo.Predicate.cmpi_eq_iff]
  exact ofNat_eq_iff _ (by have := c.isLt; omega) _

/-! ## The product with the table -/

local notation "dotR" => dot_S2048x1024_S1024x512_S2048x512_1_0_0_1_n_n

theorem lhs_axis0 (i : S2048x512.Idx) (q : (dot_S2048x1024_S1024x512_S2048x512_1_0_0_1_n_n).contr.Idx) :
    ((dot_S2048x1024_S1024x512_S2048x512_1_0_0_1_n_n).lhsIdx i q 0).val = (i 0).val := by
  unfold DotDims.lhsIdx
  rw [dif_neg (show ¬(0 : Fin S2048x1024.rank) ∈ (dot_S2048x1024_S1024x512_S2048x512_1_0_0_1_n_n).lhsBatch by decide),
    dif_pos (show (0 : Fin S2048x1024.rank) ∈ (dot_S2048x1024_S1024x512_S2048x512_1_0_0_1_n_n).lhsNonContracting by decide)]
  rfl
theorem lhs_axis1 (i : S2048x512.Idx) (q : (dot_S2048x1024_S1024x512_S2048x512_1_0_0_1_n_n).contr.Idx) :
    ((dot_S2048x1024_S1024x512_S2048x512_1_0_0_1_n_n).lhsIdx i q 1).val = (q ⟨0, by decide⟩).val :=
  (dot_S2048x1024_S1024x512_S2048x512_1_0_0_1_n_n).lhsIdx_val_of_single rfl i q
theorem rhs_axis0 (i : S2048x512.Idx) (q : (dot_S2048x1024_S1024x512_S2048x512_1_0_0_1_n_n).contr.Idx) :
    ((dot_S2048x1024_S1024x512_S2048x512_1_0_0_1_n_n).rhsIdx i q 0).val = (q ⟨0, by decide⟩).val :=
  (dot_S2048x1024_S1024x512_S2048x512_1_0_0_1_n_n).rhsIdx_val_of_single rfl i q
theorem rhs_axis1 (i : S2048x512.Idx) (q : (dot_S2048x1024_S1024x512_S2048x512_1_0_0_1_n_n).contr.Idx) :
    ((dot_S2048x1024_S1024x512_S2048x512_1_0_0_1_n_n).rhsIdx i q 1).val = (i 1).val := by
  unfold DotDims.rhsIdx
  rw [dif_neg (show ¬(1 : Fin S1024x512.rank) ∈ (dot_S2048x1024_S1024x512_S2048x512_1_0_0_1_n_n).rhsBatch by decide),
    dif_pos (show (1 : Fin S1024x512.rank) ∈ (dot_S2048x1024_S1024x512_S2048x512_1_0_0_1_n_n).rhsNonContracting by decide)]
  rfl

/-- The product into a zero accumulator, read at (r, j): the sum over the 1024 columns of the selector. -/
theorem matmul_read (lhs : FVec Ideal S2048x1024 .bf16) (rhs : FVec Ideal S1024x512 .bf16) (r : Fin 2048) (j : Fin 512) :
    matmul dot_S2048x1024_S1024x512_S2048x512_1_0_0_1_n_n none lhs rhs (constant S2048x512 .f32 0x00000000#32) (ix2 r j)
      = ∑ c : Fin 1024, lhs (ix2 r c) * rhs (ix2 c j) := by
  simp only [matmul]
  rw [Ideal.matmul_constant_zero_apply,
    ← Equiv.sum_comp (contrEquiv1 dot_S2048x1024_S1024x512_S2048x512_1_0_0_1_n_n 1024 rfl rfl).symm]
  refine Finset.sum_congr rfl fun c _ => ?_
  have hk := contrEquiv1_symm_val dot_S2048x1024_S1024x512_S2048x512_1_0_0_1_n_n 1024 rfl rfl c
  have el : (dot_S2048x1024_S1024x512_S2048x512_1_0_0_1_n_n).lhsIdx (ix2 r j)
      ((contrEquiv1 dot_S2048x1024_S1024x512_S2048x512_1_0_0_1_n_n 1024 rfl rfl).symm c) = ix2 r c :=
    funext fun a => Fin.ext (by
      match a with
      | ⟨0, _⟩ => exact lhs_axis0 _ _
      | ⟨1, _⟩ => exact (lhs_axis1 _ _).trans hk)
  have er : (dot_S2048x1024_S1024x512_S2048x512_1_0_0_1_n_n).rhsIdx (ix2 r j)
      ((contrEquiv1 dot_S2048x1024_S1024x512_S2048x512_1_0_0_1_n_n 1024 rfl rfl).symm c) = ix2 c j :=
    funext fun a => Fin.ext (by
      match a with
      | ⟨0, _⟩ => exact (rhs_axis0 _ _).trans hk
      | ⟨1, _⟩ => exact rhs_axis1 _ _)
  rw [el, er]

/-- Row r of the product is the table's row `label r` (a label below 1024, the table's height). -/
theorem picked_apply (v1 : Vec Ideal S1024x512 .bf16) (v3 : Vec Ideal S2048x1 .i32) (r : Fin 2048) (j : Fin 512)
    (h : (v3 (ix2 r (0 : Fin 1))).toNat < 1024) :
    picked v1 v3 (ix2 r j) = v1 (ix2 ⟨(v3 (ix2 r (0 : Fin 1))).toNat, h⟩ j) := by
  unfold picked
  rw [matmul_read, shapeCast_self, Finset.sum_eq_single (⟨(v3 (ix2 r (0 : Fin 1))).toNat, h⟩ : Fin 1024)]
  · rw [selector_apply, if_pos rfl, one_mul]
  · intro c _ hc
    rw [selector_apply, if_neg (fun e => hc (Fin.ext e)), zero_mul]
  · intro hn
    exact absurd (Finset.mem_univ _) hn

/-! ## The row distances and the tile -/

/-- A row sum of the block, read at row r. -/
theorem rowSum_read (src : FVec Ideal S2048x512 .f32) (hφ : FKind.Formats .f32)
    (hacc : (0x00000000#32 : BitVec 32) = 0x00000000#32) (r : Fin 2048) :
    multiReduction .add [1] S2048 src 0x00000000#32 reduces_S2048x512_S2048 hφ hacc (ix1 r) = ∑ j : Fin 512, src (ix2 r j) :=
  (Ideal.multiReduction_add_single src 0x00000000#32 reduces_S2048x512_S2048 hφ hacc (ix1 r)).trans
    (Finset.sum_congr rfl fun j _ => congrArg src (by
      funext a; refine Fin.ext ?_; match a with | ⟨0, _⟩ => rfl | ⟨1, _⟩ => rfl))

/-- The sum down a column of 2048 entries, read at its one index. -/
theorem colSum_read (s : FVec Ideal S2048x1 .f32) (hφ : FKind.Formats .f32)
    (hacc : (0x00000000#32 : BitVec 32) = 0x00000000#32) :
    multiReduction .add [0] S1 s 0x00000000#32 reduces_S2048x1_S1 hφ hacc (ix1 (0 : Fin 1)) = ∑ r : Fin 2048, s (ix2 r (0 : Fin 1)) :=
  (Ideal.multiReduction_add_single s 0x00000000#32 reduces_S2048x1_S1 hφ hacc (ix1 (0 : Fin 1))).trans
    (Finset.sum_congr rfl fun r _ => congrArg s (by
      funext a; refine Fin.ext ?_; match a with | ⟨0, _⟩ => rfl | ⟨1, _⟩ => rfl))

theorem roots_apply (v0 : Vec Ideal S2048x512 .f32) (c : FVec Ideal S2048x512 .f32) (r : Fin 2048) :
    roots v0 c (ix2 r (0 : Fin 1))
      = Ideal.sqrt (∑ j : Fin 512, (v0 (ix2 r j) - c (ix2 r j)) * (v0 (ix2 r j) - c (ix2 r j)) + eps) := by
  unfold roots eps
  show Ideal.sqrt (shapeCast S2048x1 (multiReduction .add [1] S2048 (mulf (subf v0 c) (subf v0 c)) 0x00000000#32
    reduces_S2048x512_S2048 (.inl rfl) rfl) shapeCasts_S2048_S2048x1 (ix2 r (0 : Fin 1)) + Ideal.ofBits .f32 0x358637BD#32) = _
  rw [Cert.Lib.Column.shapeCast_a_a1_apply]
  refine congrArg (fun s => Ideal.sqrt (s + _)) ((rowSum_read (mulf (subf v0 c) (subf v0 c)) _ _ r).trans ?_)
  rfl

theorem tile_apply (s : FVec Ideal S2048x1 .f32) (a : Fin 8) (b : Fin 128) :
    tile s (ix2 a b) = if a.val = 0 ∧ b.val = 0 then ∑ r : Fin 2048, s (ix2 r (0 : Fin 1)) else 0 := by
  have hsum : broadcastTo S8x128 (shapeCast S1x1 (shapeCast S1x1 (multiReduction .add [0] S1 s 0x00000000#32 reduces_S2048x1_S1 (.inl rfl) rfl)
      shapeCasts_S1_S1x1) shapeCasts_S1x1_S1x1) broadcasts_S1x1_S8x128 (ix2 a b) = ∑ r : Fin 2048, s (ix2 r (0 : Fin 1)) := by
    rw [broadcastTo_apply _ _ _ (ix2 (0 : Fin 1) (0 : Fin 1)) (fun ax => by match ax with | ⟨0, _⟩ => rfl | ⟨1, _⟩ => rfl),
      shapeCast_self, Cert.Lib.Column.shapeCast_a_a1_apply]
    exact colSum_read s _ _
  unfold tile
  rw [select_apply, hsum]
  show Scalar.select (IntOp.andi (IntOp.cmpi .eq (iota .tc S8x128 32 [0] iota_S8x128_d0_w32 (ix2 a b)) 0#32)
    (IntOp.cmpi .eq (iota .tc S8x128 32 [1] iota_S8x128_d1_w32 (ix2 a b)) 0#32)) _ (Ideal.ofBits .f32 0x00000000#32) = _
  rw [iota_single_apply, iota_single_apply, Ideal.ofBits_zero_f32]
  show Scalar.select (IntOp.andi (IntOp.cmpi .eq (BitVec.ofNat 32 a.val) 0#32) (IntOp.cmpi .eq (BitVec.ofNat 32 b.val) 0#32)) _ _ = _
  have ea : IntOp.cmpi .eq (BitVec.ofNat 32 a.val) 0#32 = 1#1 ↔ a.val = 0 :=
    StableHlo.Predicate.cmpi_eq_iff.trans (ofNat_eq_iff a.val (by have := a.isLt; omega) 0#32)
  have eb : IntOp.cmpi .eq (BitVec.ofNat 32 b.val) 0#32 = 1#1 ↔ b.val = 0 :=
    StableHlo.Predicate.cmpi_eq_iff.trans (ofNat_eq_iff b.val (by have := b.isLt; omega) 0#32)
  by_cases h : a.val = 0 ∧ b.val = 0
  · rw [ea.2 h.1, eb.2 h.2, if_pos h]
    exact select_one _ _
  · have hz : IntOp.andi (IntOp.cmpi .eq (BitVec.ofNat 32 a.val) 0#32) (IntOp.cmpi .eq (BitVec.ofNat 32 b.val) 0#32) = 0#1 :=
      eq_zero_of_ne_one fun h1 => h (by
        obtain ⟨h2, h3⟩ := IntOp.andi_eq_one.1 h1
        exact ⟨ea.1 h2, eb.1 h3⟩)
    rw [hz, if_neg h]
    exact select_zero _ _

/-! ## The stored tile, entry by entry -/

/-- THE BODY'S STORED TILE: at (0, 0) the sum over the block's rows of the distance of the feature row to the table's row
    named by the label, zero elsewhere (every label below the table's height 1024). -/
theorem pay_apply (v0 : Vec Ideal S2048x512 .f32) (v1 : Vec Ideal S1024x512 .bf16) (v3 : Vec Ideal S2048x1 .i32)
    (h : ∀ r : Fin 2048, (v3 (ix2 r (0 : Fin 1))).toNat < 1024) (a : Fin 8) (b : Fin 128) :
    k0_pay1 (F := Ideal) v0 v1 v3 (ix2 a b) = if a.val = 0 ∧ b.val = 0 then
      ∑ r : Fin 2048, Ideal.sqrt (∑ j : Fin 512, (v0 (ix2 r j) - v1 (ix2 ⟨(v3 (ix2 r (0 : Fin 1))).toNat, h r⟩ j))
        * (v0 (ix2 r j) - v1 (ix2 ⟨(v3 (ix2 r (0 : Fin 1))).toNat, h r⟩ j)) + eps) else 0 := by
  rw [pay_eq, tile_apply]
  refine congrArg (fun s => if a.val = 0 ∧ b.val = 0 then s else 0) (Finset.sum_congr rfl fun r _ => ?_)
  rw [roots_apply]
  refine congrArg (fun s => Ideal.sqrt (s + _)) (Finset.sum_congr rfl fun j _ => ?_)
  rw [picked_apply v1 v3 r j (h r)]

end Cert.CenterLoss.Body

end
-- ==== Proof.KernelValue.lean ====
/-
  The kernel's result, read off its run.

  The grid has 32 points. Point t fetches feature rows 2048 t … 2048 t + 2047, the labels of the same samples, and (every
  time) the whole table of centres, which the host has first padded from 1000 to 1024 rows with zeros; it writes back tile t
  (rows 8 t … 8 t + 7) of a 256 × 128 array. By the body's value the tile has block t's sum of distances at its corner and
  zero elsewhere — a label in the class range is below 1000, so the row it selects is a true row of the table, not padding.
  The 32 tiles cover the array, so the array ends as `partials`. The host then sums the whole array and divides by the
  number of samples: the sum of the corners is the sum over all samples, so the result is `loss`.
-/
import proofs.«408487_j90778428768344_3_alg».proof.Proof.Gen.KernelIdeal.Frame
import proofs.«408487_j90778428768344_3_alg».proof.Proof.Payload
import proofs.«408487_j90778428768344_3_alg».proof.Proof.Spec
import Idealize.ShloMosaic.Lib.Pipeline.Value
import Idealize.ShloMosaic.Lib.StableHlo.Run
import Idealize.ShloMosaic.Lib.KernelVsHost
import Idealize.ShloMosaic.PureOps.Ideal.Laws

noncomputable section

open Idealize.ShloMosaic Idealize.ShloMosaic.TcCoe Idealize.SL.Sem Idealize.ShloMosaic.ValueIdx Idealize.ShloMosaic.StableHlo
open Idealize.ShloMosaic.Pipeline (Dat)
open scoped BigOperators

namespace Cert.CenterLoss

/-- Inside tile `t` of the array of partial sums: the block sum at the corner, zero elsewhere. -/
theorem partials_at (x : SX.Idx → EReal) (w : SW.Idx → EReal) (tg : ST.Idx → BitVec 32) (t : Fin 32) (a : Fin 8) (b : Fin 128)
    (p : (⟨2, ![256, 128]⟩ : Shape).Idx) (hp0 : (p 0).val = t.val * 8 + a.val) (hp1 : (p 1).val = b.val) :
    partials x w tg p = if a.val = 0 ∧ b.val = 0 then blockSum x w tg t else 0 := by
  unfold partials corner
  have ha := a.isLt
  by_cases h : a.val = 0 ∧ b.val = 0
  · rw [if_pos h, if_pos ⟨by rw [hp0]; omega, by rw [hp1]; exact h.2⟩]
    congr 1
    apply Fin.ext
    show (p 0).val / 8 = t.val
    rw [hp0]; omega
  · rw [if_neg h, if_neg]
    rintro ⟨h0, h1⟩
    exact h ⟨by rw [hp0] at h0; omega, by rw [hp1] at h1; exact h1⟩

end Cert.CenterLoss

namespace Cert.CenterLoss.Kernel

open Cert.KernelIdeal Cert.KernelIdeal.Gen Cert.CenterLoss

variable (m : (ℓ : Loc nD τ sig) → Buf (Elt Ideal) ℓ) (ρ : Dev nD → PrngReg)

/-- The three argument arrays, at their literal shapes. -/
abbrev xs (c : Dev nD) : SX.Idx → EReal := m ((c : Thread nD τ).loc main_arg0)
abbrev ws (c : Dev nD) : SW.Idx → EReal := m ((c : Thread nD τ).loc main_arg1)
abbrev tg (c : Dev nD) : ST.Idx → BitVec 32 := m ((c : Thread nD τ).loc main_arg2)

theorem hz : (![0, 0] : Fin 2 → Nat) = fun _ => 0 := funext fun a => by fin_cases a <;> rfl

/-- A grid point as a block number. -/
def blockOf (t : Fin cfg0.N) : Fin 32 := ⟨t.val, Nat.lt_of_lt_of_eq t.isLt N_0⟩

/-! ## What the host prepares before the launch -/

/-- The labels as a column. -/
theorem V_labels (c : Dev nD) :
    (V m c main_v0 : S65536x1.Idx → BitVec 32) = shapeCast S65536x1 (tg m c) shapeCasts_S65536_S65536x1 := by
  dsimp only [V, V0]
  simp only [hostOps0, hostOps0_1, hostOps0_2, List.flatten_cons, List.flatten_nil, List.append_nil, List.cons_append, List.nil_append]
  after_results
  rfl

/-- The table of centres padded below with 24 rows of the number 0 (read as a float) — format changes are the identity. -/
theorem V_table (c : Dev nD) :
    (V m c main_v2 : S1024x512.Idx → EReal) = truncf .bf16 (pad S1024x512 ![0, 0] ![24, 0] ![0, 0] (ws m c)
      (sitofp (F := Ideal) .f32 (constantI S_ 32 0#32)) pads_S1000x512_S1024x512_0240_000 h_S_) bitsLt_bf16_f32 := by
  dsimp only [V, V0]
  simp only [hostOps0, hostOps0_1, hostOps0_2, List.flatten_cons, List.flatten_nil, List.append_nil, List.cons_append, List.nil_append]
  after_results
  rfl

/-- A true row of the padded table is the table's row. -/
theorem V_table_apply (c : Dev nD) (n : Fin 1000) (j : Fin 512) (k : S1024x512.Idx) (hk0 : (k 0).val = n.val) (hk1 : (k 1).val = j.val) :
    (V m c main_v2 : S1024x512.Idx → EReal) k = ws m c (ix2 n j) := by
  rw [V_table, truncf_apply]
  refine pad_apply_of_inside _ _ _ _ _ _ _ k (ix2 n j) fun a => ?_
  match a with
  | ⟨0, _⟩ => show (k 0).val = 0 + n.val * (0 + 1); rw [hk0]; omega
  | ⟨1, _⟩ => show (k 1).val = 0 + j.val * (0 + 1); rw [hk1]; omega

/-! ## The windows' blocks -/

/-- The printed index maps over the grid: features, labels and result move with the point; the table stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point `t` is rows 2048 t … of the features. -/
theorem xblk_apply (c : Dev nD) (t : Fin cfg0.N) (x : S2048x512.Idx) (k : S65536x512.Idx)
    (hk0 : (k 0).val = t.val * 2048 + (x 0).val) (hk1 : (k 1).val = (x 1).val) :
    (iblk m c 0 t : Vec Ideal S2048x512 .f32) x = xs m c k := by
  obtain ⟨e0, e1, -⟩ := idx_facts t
  unfold iblk
  rw [View.read_apply]
  show V m c main_arg0 _ = _
  rw [V_main_arg0]
  refine congrArg (xs m c) (funext fun a => Fin.ext ?_)
  match a with
  | ⟨0, _⟩ => show win0_0.index t (0 : Fin 2) * 2048 + 1 * (x 0).val = (k 0).val; rw [e0, hk0]; omega
  | ⟨1, _⟩ => show win0_0.index t (1 : Fin 2) * 512 + 1 * (x 1).val = (k 1).val; rw [e1, hk1]; omega

/-- The table block at every point is the whole padded table. -/
theorem wblk_apply (c : Dev nD) (t : Fin cfg0.N) (x : S1024x512.Idx) :
    (iblk m c 1 t : Vec Ideal S1024x512 .bf16) x = (V m c main_v2 : S1024x512.Idx → EReal) x := by
  obtain ⟨-, -, e0, e1, -⟩ := idx_facts t
  unfold iblk
  rw [View.read_apply]
  show V m c main_v2 _ = _
  refine congrArg (V m c main_v2) (funext fun a => Fin.ext ?_)
  match a with
  | ⟨0, _⟩ => show win0_1.index t (0 : Fin 2) * 1024 + 1 * (x 0).val = (x 0).val; rw [e0]; omega
  | ⟨1, _⟩ => show win0_1.index t (1 : Fin 2) * 512 + 1 * (x 1).val = (x 1).val; rw [e1]; omega

/-- The label block at point `t` is the labels of samples 2048 t …. -/
theorem tblk_apply (c : Dev nD) (t : Fin cfg0.N) (r : Fin 2048) (i : Fin 65536) (hi : i.val = t.val * 2048 + r.val) :
    (iblk m c 2 t : Vec Ideal S2048x1 .i32) (ix2 r (0 : Fin 1)) = tg m c (ix1 i) := by
  obtain ⟨-, -, -, -, e0, e1, -⟩ := idx_facts t
  unfold iblk
  rw [View.read_apply]
  show (V m c main_v0 : S65536x1.Idx → BitVec 32) _ = _
  rw [V_labels]
  refine shapeCast_apply _ _ _ (ix1 i) ?_
  rw [Shape.rowMajor_val_two, Shape.rowMajor_val_one]
  show i.val = (win0_2.index t (0 : Fin 2) * 2048 + 1 * r.val) * 1 + (win0_2.index t (1 : Fin 2) * 1 + 1 * 0)
  rw [e0, e1, hi]; omega

/-! ## What each point writes back, and the array after the run -/

/-- WHAT POINT `t` WRITES BACK is tile `t` of the array of partial sums. -/
theorem flushed_eq (c : Dev nD) (hT : InRange (tg m c)) (t : Fin cfg0.N) :
    (dats m 0 c).flushed 3 t = ((cfg0.win 3).blk t).view.read (Elt Ideal) (partials (xs m c) (ws m c) (tg m c)) := by
  have ht : t.val < 32 := (blockOf t).isLt
  obtain ⟨-, -, -, -, -, -, e0, e1⟩ := idx_facts t
  -- the label of row r of the block, in the class range
  have hlab : ∀ r : Fin 2048, ((iblk m c 2 t : Vec Ideal S2048x1 .i32) (ix2 r (0 : Fin 1))).toNat < 1000 := fun r => by
    rw [tblk_apply m c t r (Cert.BlockSum.pos 32 2048 rfl (blockOf t) r) rfl]
    exact hT _
  show (cfg0.win 3).cut (grid0.coords t) ((dats m 0 c).after 3 t) = _
  rw [after0_3]
  unfold out0_3
  rw [View.canon_unit_zero hz]
  simp only [View.ld_unit_zero (S := S2048x512) hz, View.ld_unit_zero (S := S1024x512) hz, View.ld_unit_zero (S := S2048x1) hz]
  funext y
  obtain ⟨a, b, rfl⟩ : ∃ (a : Fin 8) (b : Fin 128), y = ix2 a b := ⟨y 0, y 1, eq_ix2 y⟩
  show k0_pay1 (F := Ideal) (iblk m c 0 t) (iblk m c 1 t) (iblk m c 2 t) (ix2 a b)
    = partials (xs m c) (ws m c) (tg m c) (((cfg0.win 3).blk t).view.emb (ix2 a b))
  refine (Body.pay_apply (iblk m c 0 t) (iblk m c 1 t) (iblk m c 2 t) (fun r => Nat.lt_trans (hlab r) (by decide)) a b).trans ?_
  refine Eq.trans ?_ (partials_at (xs m c) (ws m c) (tg m c) (blockOf t) a b _ ?_ ?_).symm
  · refine congrArg (fun s => if a.val = 0 ∧ b.val = 0 then s else 0) (Finset.sum_congr rfl fun r _ => ?_)
    unfold dist sqDist
    refine congrArg (fun s => Ideal.sqrt (s + eps)) (Finset.sum_congr rfl fun j _ => ?_)
    have hx : (iblk m c 0 t : Vec Ideal S2048x512 .f32) (ix2 r j) = xs m c (ix2 (Cert.BlockSum.pos 32 2048 rfl (blockOf t) r) j) :=
      xblk_apply m c t (ix2 r j) _ rfl rfl
    have hl := tblk_apply m c t r (Cert.BlockSum.pos 32 2048 rfl (blockOf t) r) rfl
    have hn : ((iblk m c 2 t : Vec Ideal S2048x1 .i32) (ix2 r (0 : Fin 1))).toNat
        = (cls (tg m c) (Cert.BlockSum.pos 32 2048 rfl (blockOf t) r)).val := by
      rw [hl]; show _ = min _ 999
      have := hT (Cert.BlockSum.pos 32 2048 rfl (blockOf t) r); omega
    have hw : (iblk m c 1 t : Vec Ideal S1024x512 .bf16)
        (ix2 ⟨((iblk m c 2 t : Vec Ideal S2048x1 .i32) (ix2 r (0 : Fin 1))).toNat, Nat.lt_trans (hlab r) (by decide)⟩ j)
        = ws m c (ix2 (cls (tg m c) (Cert.BlockSum.pos 32 2048 rfl (blockOf t) r)) j) := by
      rw [wblk_apply]
      exact V_table_apply m c _ j _ hn rfl
    rw [hx, hw]
  · show win0_3.index t (0 : Fin 2) * 8 + 1 * a.val = t.val * 8 + a.val
    rw [e0]; omega
  · show win0_3.index t (1 : Fin 2) * 128 + 1 * b.val = b.val
    rw [e1]; omega

/-- An index of the array is in point `t`'s tile iff each coordinate is in the tile's range on its axis. -/
theorem mem_blk (t : Fin cfg0.N) (i : S256x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v3).slice (win0_3.rect t)).set ↔ _
  rw [View.set_slice_whole, Rect.mem_set_unit]
  exact Iff.rfl

/-- The 32 tiles cover the array: row `p` is in tile `p / 8`. -/
theorem cover (i : S256x128.Idx) : ∃ t : Fin cfg0.N, (cfg0.win 3).flush t = true ∧ i ∈ ((cfg0.win 3).blk t).view.set := by
  have hi0 : (i 0).val < 256 := (i 0).isLt
  have hi1 : (i 1).val < 128 := (i 1).isLt
  let t : Fin cfg0.N := ⟨(i 0).val / 8, by rw [show cfg0.N = 32 from N_0]; omega⟩
  obtain ⟨-, -, -, -, -, -, e0, e1⟩ := idx_facts t
  refine ⟨t, flush0_3 t, ?_⟩
  rw [mem_blk]
  intro a
  match a with
  | ⟨0, _⟩ =>
    show win0_3.index t (0 : Fin 2) * 8 ≤ (i 0).val ∧ (i 0).val < win0_3.index t (0 : Fin 2) * 8 + 8
    rw [e0]; show (i 0).val / 8 * 8 ≤ (i 0).val ∧ (i 0).val < (i 0).val / 8 * 8 + 8; omega
  | ⟨1, _⟩ =>
    show win0_3.index t (1 : Fin 2) * 128 ≤ (i 1).val ∧ (i 1).val < win0_3.index t (1 : Fin 2) * 128 + 128
    rw [e1]; omega

/-- THE ARRAY after the region is the array of partial sums. -/
theorem final (c : Dev nD) (hT : InRange (tg m c)) :
    (dats m 0 c).arrAt 3 cfg0.N = partials (xs m c) (ws m c) (tg m c) :=
  (dats m 0 c).arrAt_eq_of_cover 3 (partials (xs m c) (ws m c) (tg m c)) (fun t _ => flushed_eq m c hT t) cover

/-! ## The host's last lines, and the run -/

/-- The result the host computes from the array: the loss. -/
theorem tail_value (c : Dev nD) (hT : InRange (tg m c)) :
    Pipeline.afterTail₀ cfgs (dats m) 0 (V0 m) [hostOps1] c main_v5 = fun _ => loss (xs m c) (ws m c) (tg m c) := by
  unfold Pipeline.afterTail₀
  show StableHlo.after hostOps1 _ (Proc.devRef .tc main_v5) = _
  after_results
  have harr : Pipeline.withArrays (cfgs 0).spec c (V0 m c) (fun w => (dats m 0 c).arrAt w (cfgs 0).N) (Proc.devRef .tc main_v3)
      = partials (xs m c) (ws m c) (tg m c) :=
    (Pipeline.withArrays_arr spec0 launch0.win.arr_inj c _ _ 3).trans (final m c hT)
  rw [harr]
  funext i
  show Ideal.div (Ideal.hostReduceAdd reducesTo_S256x128_S_d0_1 (partials (xs m c) (ws m c) (tg m c))
    (Ideal.ofBits .f32 0x00000000#32) (Shape.Idx.first h_S_)) (Ideal.ofBits .f32 0x47800000#32) = _
  rw [Ideal.hostReduceAdd_total reducesTo_S256x128_S_d0_1 (fun b => b.elim0), Ideal.ofBits_zero_f32, zero_add, sum_partials]
  rfl

/-- THE KERNEL'S RUN: it ends with the loss in its result and its arguments unchanged. -/
theorem run (hT : ∀ c : Dev nD, InRange (tg m c)) :
    θ_run defs (onTc (τ := τ) (main (F := Ideal))) ⟨m, fun _ => 0, ρ⟩ fun r => ∀ c : Dev nD,
      r.2.mem ((c.tc : Thread nD τ).loc main_v5) = (fun _ => loss (xs m c) (ws m c) (tg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_value m c (hT c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.CenterLoss.Kernel

end
-- ==== Proof.lean ====
/-
  A centre loss, computed two ways, is one number over the extended reals.

  Inputs: 65536 feature rows x[i, ·] of 512 numbers, a table w of 1000 class centres of 512 numbers, and a class label
  tg[i] per sample. Both programs compute the mean over the samples of
      dist i = √( Σ_j (x[i,j] − w[tg i, j])² + ε ).
  The reference gathers the centre rows by index. The kernel pads the table to 1024 rows, cuts the samples into 32 blocks
  of 2048, selects each sample's centre by multiplying a 0/1 selector matrix with the table, and writes each block's sum of
  distances into the corner of an 8 × 128 tile that is zero elsewhere; the host sums all tiles and divides.

  The two agree exactly when every label is a class number, 0 ≤ tg[i] < 1000, which the precondition states (outside that
  range the reference wraps negative labels and clamps large ones, while the kernel's selector row is all zero). Under it:
  the selector row of sample i has its single 1 in column tg i, so the product picks row tg i of the table (0 · y = 0 and
  1 · y = y on the extended reals, whatever y is — no finiteness is used); the sum over the whole array of tiles is the sum
  of the 32 corner values; and a sum over 32 · 2048 samples is the sum over the blocks of each block's sum.

  Modules: Spec (the loss as one function, and the tile-corner sum), Labels (the precondition gives the label range),
  RefValue (the reference computes the loss), Payload (what the kernel body stores), KernelValue (the array the kernel
  leaves, the host's last lines, the kernel's run). The three frames are the generated ones; the reference's is its
  generated run with the result dropped.
-/
import proofs.«408487_j90778428768344_3_alg».proof.Defs
import proofs.«408487_j90778428768344_3_alg».proof.Proof.Gen.Kernel
import proofs.«408487_j90778428768344_3_alg».proof.Proof.Gen.Kernel.Skeleton
import proofs.«408487_j90778428768344_3_alg».proof.Proof.Gen.Kernel.Launch
import proofs.«408487_j90778428768344_3_alg».proof.Proof.Gen.Kernel.Points
import proofs.«408487_j90778428768344_3_alg».proof.Proof.Gen.Kernel.Frame
import proofs.«408487_j90778428768344_3_alg».proof.Proof.Gen.KernelIdeal
import proofs.«408487_j90778428768344_3_alg».proof.Proof.Gen.KernelIdeal.Skeleton
import proofs.«408487_j90778428768344_3_alg».proof.Proof.Gen.KernelIdeal.Launch
import proofs.«408487_j90778428768344_3_alg».proof.Proof.Gen.KernelIdeal.Points
import proofs.«408487_j90778428768344_3_alg».proof.Proof.Gen.KernelIdeal.Frame
import proofs.«408487_j90778428768344_3_alg».proof.Proof.Gen.ReferenceIdeal
import proofs.«408487_j90778428768344_3_alg».proof.Proof.Gen.Pre_finite_inputs
import proofs.«408487_j90778428768344_3_alg».proof.Proof.Gen.ReferenceIdeal.Run
import proofs.«408487_j90778428768344_3_alg».proof.Proof.Gen.ReferenceIdeal.Read
import proofs.«408487_j90778428768344_3_alg».proof.Proof.Labels
import proofs.«408487_j90778428768344_3_alg».proof.Proof.RefValue
import proofs.«408487_j90778428768344_3_alg».proof.Proof.KernelValue
import Idealize.ShloMosaic.Adequacy
import Idealize.ShloMosaic.Init

noncomputable section

namespace Cert.Proof

open Idealize.ShloMosaic Idealize.SL.Sem Cert.CenterLoss

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the loss of the shared arguments. -/
theorem algebraic : Cert.algebraic_KernelIdeal_ReferenceIdeal := by
  intro m ρ m' ρ' hpre hagree
  have hT : ∀ c, InRange (Kernel.tg m c) := fun c => inRange_of_pre _ _ _ (hpre c)
  refine ⟨fun c => fun _ => loss (Kernel.xs m c) (Kernel.ws m c) (Kernel.tg m c), Kernel.run m ρ hT, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  exact Ref.value _ _ _ (hT c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
